-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x2 : Shape := ⟨3, ![64, 16384, 2]⟩
abbrev S64x16384 : Shape := ⟨2, ![64, 16384]⟩
abbrev S64x2 : Shape := ⟨2, ![64, 2]⟩
abbrev S_ : Shape := ⟨0, ![]⟩

class Facts : Prop where
  bcast_S_S64x16384x2 : S_.BroadcastsInDim S64x16384x2 (![] : Fin 0 → Fin S64x16384x2.rank)
  reducesTo_S64x16384x2_S_d0_1_2 : S64x16384x2.ReducesTo [0, 1, 2] S_
  h_S_ : 0 < S_.numel
  bcast_S_S64x16384 : S_.BroadcastsInDim S64x16384 (![] : Fin 0 → Fin S64x16384.rank)
  reducesTo_S64x16384_S_d0_1 : S64x16384.ReducesTo [0, 1] S_
  bcast_S_S64x2 : S_.BroadcastsInDim S64x2 (![] : Fin 0 → Fin S64x2.rank)
  reducesTo_S64x2_S_d0_1 : S64x2.ReducesTo [0, 1] S_

variable [Facts]

def fn_part1 {F : FTy → Type} [FloatOps F] (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  main_v18

def fn {F : FTy → Type} [FloatOps F] (main_arg0 : FVec F S64x16384x2 .f32) (main_arg1 : FVec F S64x16384 .f32) (main_arg2 : FVec F S64x2 .f32) (main_arg3 : FVec F S64x2 .f32) : IVec S_ 1 :=
  let main_v0 : FVec F S64x16384x2 .f32 := Host.absf main_arg0
  let main_cst : FVec F S_ .f32 := constant S_ .f32 0x7F800000#32
  let main_v1 : FVec F S64x16384x2 .f32 := broadcastInDim S64x16384x2 ![] bcast_S_S64x16384x2 main_cst
  let main_v2 : IVec S64x16384x2 1 := cmpf .olt main_v0 main_v1
  let main_c : IVec S_ 1 := constantI S_ 1 1#1
  let main_v3 : IVec S_ 1 := (fun x v => Host.reduce IntOp.andi x v reducesTo_S64x16384x2_S_d0_1_2 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_v13 main_v16
-- ==== Kernel.lean ====
abbrev S64x16384x2 : Shape := ⟨3, ![64, 16384, 2]⟩
abbrev S64x16384 : Shape := ⟨2, ![64, 16384]⟩
abbrev S64x2 : Shape := ⟨2, ![64, 2]⟩
abbrev S64x1x16384 : Shape := ⟨3, ![64, 1, 16384]⟩
abbrev S64x64x1 : Shape := ⟨3, ![64, 64, 1]⟩
abbrev S1x16384x2 : Shape := ⟨3, ![1, 16384, 2]⟩
abbrev S1x1x16384 : Shape := ⟨3, ![1, 1, 16384]⟩
abbrev S1x64x1 : Shape := ⟨3, ![1, 64, 1]⟩
abbrev S16384x2 : Shape := ⟨2, ![16384, 2]⟩
abbrev S1x16384 : Shape := ⟨2, ![1, 16384]⟩
abbrev S64x1 : Shape := ⟨2, ![64, 1]⟩
abbrev S64 : Shape := ⟨1, ![64]⟩
abbrev S16384x1 : Shape := ⟨2, ![16384, 1]⟩
abbrev S16384 : Shape := ⟨1, ![16384]⟩
abbrev S64x64 : Shape := ⟨2, ![64, 64]⟩

abbrev nBuf : Space → Nat
  | .hbm => 7
  | .vmem => 8
  | .smem => 0
  | _ => 0

abbrev bufTy : (tb : Table) → Fin (tcTables nBuf tb) → BufTy
  | .hbm, ⟨0, _⟩ => ⟨S64x16384x2, .f32⟩
  | .hbm, ⟨1, _⟩ => ⟨S64x16384, .f32⟩
  | .hbm, ⟨2, _⟩ => ⟨S64x2, .f32⟩
  | .hbm, ⟨3, _⟩ => ⟨S64x2, .f32⟩
  | .hbm, ⟨4, _⟩ => ⟨S64x1x16384, .f32⟩
  | .hbm, ⟨5, _⟩ => ⟨S64x64x1, .f32⟩
  | .hbm, ⟨6, _⟩ => ⟨S64x64, .f32⟩
  | .local _ .vmem, ⟨0, _⟩ => ⟨S1x16384x2, .f32⟩
  | .local _ .vmem, ⟨1, _⟩ => ⟨S1x16384x2, .f32⟩
  | .local _ .vmem, ⟨2, _⟩ => ⟨S1x1x16384, .f32⟩
  | .local _ .vmem, ⟨3, _⟩ => ⟨S1x1x16384, .f32⟩
  | .local _ .vmem, ⟨4, _⟩ => ⟨S64x2, .f32⟩
  | .local _ .vmem, ⟨5, _⟩ => ⟨S64x2, .f32⟩
  | .local _ .vmem, ⟨6, _⟩ => ⟨S1x64x1, .f32⟩
  | .local _ .vmem, ⟨7, _⟩ => ⟨S1x64x1, .f32⟩
  | _, _ => ⟨S64x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x16384_S64x1x16384 : S64x16384.ShapeCasts S64x1x16384
  inb_S1x16384x2_S1x16384x2_0_0_0 : ∀ a, (![0, 0, 0] : Fin 3 → Nat) a + S1x16384x2.size a ≤ S1x16384x2.size a
  h_S1x16384x2 : 0 < S1x16384x2.numel
  shapeCasts_S1x16384x2_S16384x2 : S1x16384x2.ShapeCasts S16384x2
  inb_S1x1x16384_S1x1x16384_0_0_0 : ∀ a, (![0, 0, 0] : Fin 3 → Nat) a + S1x1x16384.size a ≤ S1x1x16384.size a
  h_S1x1x16384 : 0 < S1x1x16384.numel
  shapeCasts_S1x1x16384_S1x16384 : S1x1x16384.ShapeCasts S1x16384
  inb_S64x2_S64x2_0_0 : ∀ a, (![0, 0] : Fin 2 → Nat) a + S64x2.size a ≤ S64x2.size a
  h_S64x2 : 0 < S64x2.numel
  slices_S64x2_o0_0_S64x1 : S64x2.Slices ![0, 0] S64x1
  shapeCasts_S64x1_S64 : S64x1.ShapeCasts S64
  shapeCasts_S64_S64x1 : S64.ShapeCasts S64x1
  slices_S16384x2_o0_0_S16384x1 : S16384x2.Slices ![0, 0] S16384x1
  shapeCasts_S16384x1_S16384 : S16384x1.ShapeCasts S16384
  shapeCasts_S16384_S1x16384 : S16384.ShapeCasts S1x16384
  broadcasts_S64x1_S64x16384 : S64x1.Broadcasts S64x16384
  broadcasts_S1x16384_S64x16384 : S1x16384.Broadcasts S64x16384
  slices_S64x2_o0_1_S64x1 : S64x2.Slices ![0, 1] S64x1
  slices_S16384x2_o0_1_S16384x1 : S16384x2.Slices ![0, 1] S16384x1
  reduces_S64x16384_S64 : S64x16384.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S64x64x1_S64x64 : S64x64x1.ShapeCasts S64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x2.size a ≤ S64x16384x2.size a
  hwx0_0 : ∀ i : grid0.Coords, EltTy.bits .f32 = 32 ∨ (Rect.block (s := S64x16384x2) S1x16384x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S64x1x16384.size a
  hwx0_1 : ∀ i : grid0.Coords, EltTy.bits .f32 = 32 ∨ (Rect.block (s := S64x1x16384) S1x1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2.size a ≤ S64x2.size a
  hwx0_3 : ∀ i : grid0.Coords, EltTy.bits .f32 = 32 ∨ (Rect.block (s := S64x2) S64x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S64x64x1.size a
  hwx0_4 : ∀ i : grid0.Coords, EltTy.bits .f32 = 32 ∨ (Rect.block (s := S64x64x1) S1x64x1.size (cc0_transform_4 i) (hinb0_4 i)).WholeWords (EltTy.packing .f32)

variable [Facts₀]

abbrev win0_0 : Pipeline.Window sig grid0 :=
  Pipeline.Window.ofSpec (Memref.whole main_arg0) S1x16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x16384x2 : Shape := ⟨3, ![64, 16384, 2]⟩
abbrev S64x16384 : Shape := ⟨2, ![64, 16384]⟩
abbrev S64x2 : Shape := ⟨2, ![64, 2]⟩
abbrev S1x64x1x2 : Shape := ⟨4, ![1, 64, 1, 2]⟩
abbrev S64x1x16384x2 : Shape := ⟨4, ![64, 1, 16384, 2]⟩
abbrev S64x64x16384x2 : Shape := ⟨4, ![64, 64, 16384, 2]⟩
abbrev S_ : Shape := ⟨0, ![]⟩
abbrev S64x64x16384 : Shape := ⟨3, ![64, 64, 16384]⟩
abbrev S64x1x16384 : Shape := ⟨3, ![64, 1, 16384]⟩
abbrev S64x64 : Shape := ⟨2, ![64, 64]⟩

abbrev nBuf : Space → Nat
  | .hbm => 22
  | .vmem => 0
  | .smem => 0
  | _ => 0

abbrev bufTy : (tb : Table) → Fin (tcTables nBuf tb) → BufTy
  | .hbm, ⟨0, _⟩ => ⟨S64x16384x2, .f32⟩
  | .hbm, ⟨1, _⟩ => ⟨S64x16384, .f32⟩
  | .hbm, ⟨2, _⟩ => ⟨S64x2, .f32⟩
  | .hbm, ⟨3, _⟩ => ⟨S64x2, .f32⟩
  | .hbm, ⟨4, _⟩ => ⟨S1x64x1x2, .f32⟩
  | .hbm, ⟨5, _⟩ => ⟨S64x1x16384x2, .f32⟩
  | .hbm, ⟨6, _⟩ => ⟨S64x64x16384x2, .f32⟩
  | .hbm, ⟨7, _⟩ => ⟨S64x64x16384x2, .f32⟩
  | .hbm, ⟨8, _⟩ => ⟨S64x64x16384x2, .f32⟩
  | .hbm, ⟨9, _⟩ => ⟨S1x64x1x2, .f32⟩
  | .hbm, ⟨10, _⟩ => ⟨S64x64x16384x2, .f32⟩
  | .hbm, ⟨11, _⟩ => ⟨S64x64x16384x2, .f32⟩
  | .hbm, ⟨12, _⟩ => ⟨S64x64x16384x2, .f32⟩
  | .hbm, ⟨13, _⟩ => ⟨S_, .f32⟩
  | .hbm, ⟨14, _⟩ => ⟨S64x64x16384, .f32⟩
  | .hbm, ⟨15, _⟩ => ⟨S64x64x16384, .f32⟩
  | .hbm, ⟨16, _⟩ => ⟨S64x64x16384, .f32⟩
  | .hbm, ⟨17, _⟩ => ⟨S64x1x16384, .f32⟩
  | .hbm, ⟨18, _⟩ => ⟨S64x64x16384, .f32⟩
  | .hbm, ⟨19, _⟩ => ⟨S64x64x16384, .f32⟩
  | .hbm, ⟨20, _⟩ => ⟨S_, .f32⟩
  | .hbm, ⟨21, _⟩ => ⟨S64x64, .f32⟩
  | _, _ => ⟨S64x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S64x2_S1x64x1x2_1_3 : S64x2.BroadcastsInDim S1x64x1x2 (![1, 3] : Fin 2 → Fin S1x64x1x2.rank)
  bcast_S64x16384x2_S64x1x16384x2_0_2_3 : S64x16384x2.BroadcastsInDim S64x1x16384x2 (![0, 2, 3] : Fin 3 → Fin S64x1x16384x2.rank)
  bcast_S1x64x1x2_S64x64x16384x2_0_1_2_3 : S1x64x1x2.BroadcastsInDim S64x64x16384x2 (![0, 1, 2, 3] : Fin 4 → Fin S64x64x16384x2.rank)
  bcast_S64x1x16384x2_S64x64x16384x2_0_1_2_3 : S64x1x16384x2.BroadcastsInDim S64x64x16384x2 (![0, 1, 2, 3] : Fin 4 → Fin S64x64x16384x2.rank)
  reducesTo_S64x64x16384x2_S64x64x16384_d3 : S64x64x16384x2.ReducesTo [3] S64x64x16384
  h_S_ : 0 < S_.numel
  bcast_S64x16384_S64x1x16384_0_2 : S64x16384.BroadcastsInDim S64x1x16384 (![0, 2] : Fin 2 → Fin S64x1x16384.rank)
  bcast_S64x1x16384_S64x64x16384_0_1_2 : S64x1x16384.BroadcastsInDim S64x64x16384 (![0, 1, 2] : Fin 3 → Fin S64x64x16384.rank)
  reducesTo_S64x64x16384_S64x64_d2 : S64x64x16384.ReducesTo [2] S64x64

variable [Facts₀]

class Facts : Prop extends Facts₀ where

variable [Facts]
-- ==== Proof.RbfPool.lean ====
/-
  The pooled radial-basis response.  For a batch element b and a centre n, every point p of the batch contributes
  the weight  exp(−Σ_d s[n,d]·(c[n,d] − x[b,p,d])²) · k[b,p]  (k the mask that switches dummy points off), and the
  response is the sum of the weights over the 16384 points.  Everything is read on the extended reals; no law used
  here needs finiteness: only that a sum of two terms is the two terms added to zero, and that subtracting from
  zero negates.
-/
import Idealize.ShloMosaic.PureOps.Ideal
import Idealize.ShloMosaic.Lib.ValueIdx

noncomputable section

namespace Cert.RbfPool

open Idealize.ShloMosaic Idealize.ShloMosaic.ValueIdx

/-- The points: 64 batch elements of 16384 points in the plane. -/
abbrev Pts : Shape := ⟨3, ![64, 16384, 2]⟩
/-- The mask: one entry per batch element and point. -/
abbrev Msk : Shape := ⟨2, ![64, 16384]⟩
/-- The centres, and their sharpnesses: 64 of them in the plane. -/
abbrev Ctr : Shape := ⟨2, ![64, 2]⟩

/-- Coordinate d's share of the exponent at (b, n, p): the sharpness times the squared distance along d, multiplied
    out from the left as (s·δ)·δ. -/
def expoShare (x : Pts.Idx → EReal) (c s : Ctr.Idx → EReal) (b n : Fin 64) (p : Fin 16384) (d : Fin 2) : EReal :=
  s (ix2 n d) * (c (ix2 n d) - x (ix3 b p d)) * (c (ix2 n d) - x (ix3 b p d))

/-- Point p's weight for centre n in batch element b. -/
def ptWeight (x : Pts.Idx → EReal) (k : Msk.Idx → EReal) (c s : Ctr.Idx → EReal) (b n : Fin 64) (p : Fin 16384) : EReal :=
  Ideal.exp (-(∑ d : Fin 2, expoShare x c s b n p d)) * k (ix2 b p)

/-- The response of centre n on batch element b: the weights summed over the points. -/
def response (x : Pts.Idx → EReal) (k : Msk.Idx → EReal) (c s : Ctr.Idx → EReal) (b n : Fin 64) : EReal :=
  ∑ p : Fin 16384, ptWeight x k c s b n p

/-- The exponent accumulated coordinate by coordinate into a zero, and negated by subtraction from zero, is the
    weight's exponent. -/
theorem ptWeight_unrolled (x : Pts.Idx → EReal) (k : Msk.Idx → EReal) (c s : Ctr.Idx → EReal) (b n : Fin 64) (p : Fin 16384) :
    Ideal.exp (0 - ((0 + expoShare x c s b n p 0) + expoShare x c s b n p 1)) * k (ix2 b p) = ptWeight x k c s b n p := by
  unfold ptWeight
  rw [Fin.sum_univ_two, zero_add, sub_eq_add_neg, zero_add]

end Cert.RbfPool

end
-- ==== Proof.RefPool.lean ====
/-
  The reference program's result, index by index.  It spreads the centres, the sharpnesses and the points over a
  common [64, 64, 16384, 2] box, forms s·δ·δ there with δ = c − x, sums the two plane coordinates into a zero,
  negates, exponentiates, multiplies by the mask spread over the centres, and sums the points into a zero.  Read at
  (b, n) that is the pooled response of centre n on batch element b: each spread reads one entry of its operand, and
  the two sums are the response's two sums.
-/
import proofs.«172407_j45200235823404_1_alg».proof.Proof.Gen.ReferenceIdeal.Read
import proofs.«172407_j45200235823404_1_alg».proof.Proof.RbfPool

noncomputable section

namespace Cert.ReferenceIdeal.RefValue

open Cert.ReferenceIdeal Cert.ReferenceIdeal.Read Idealize.ShloMosaic Idealize.ShloMosaic.ValueIdx Cert.RbfPool

/-- Where the spread centres (and sharpnesses) are read: entry (n, d) of the [64, 2] table, whatever b and p. -/
theorem centre_at (i : S64x64.Idx) (p : Fin 16384) (d : Fin 2) :
    idx_main_v0 (idx_main_v2 (idx_main_v9 (idx_main_v15 i p) d)) = ix2 (i 1) d :=
  funext fun a => Fin.ext (by match a with | ⟨0, _⟩ => rfl | ⟨1, _⟩ => rfl)

/-- The sharpnesses are spread the same way. -/
theorem sharp_at (i : S64x64.Idx) (p : Fin 16384) (d : Fin 2) :
    idx_main_v5 (idx_main_v6 (idx_main_v9 (idx_main_v15 i p) d)) = ix2 (i 1) d :=
  funext fun a => Fin.ext (by match a with | ⟨0, _⟩ => rfl | ⟨1, _⟩ => rfl)

/-- Where the spread points are read: entry (b, p, d), whatever n. -/
theorem point_at (i : S64x64.Idx) (p : Fin 16384) (d : Fin 2) :
    idx_main_v1 (idx_main_v3 (idx_main_v9 (idx_main_v15 i p) d)) = ix3 (i 0) p d :=
  funext fun a => Fin.ext (by match a with | ⟨0, _⟩ => rfl | ⟨1, _⟩ => rfl | ⟨2, _⟩ => rfl)

/-- Where the spread mask is read: entry (b, p), whatever n. -/
theorem mask_at (i : S64x64.Idx) (p : Fin 16384) :
    idx_main_v12 (idx_main_v13 (idx_main_v15 i p)) = ix2 (i 0) p :=
  funext fun a => Fin.ext (by match a with | ⟨0, _⟩ => rfl | ⟨1, _⟩ => rfl)

/-- The box's entry at (b, n, p, d) is coordinate d's share of the exponent. -/
theorem share_at (x0 : Pts.Idx → EReal) (x2 x3 : Ctr.Idx → EReal) (i : S64x64.Idx) (p : Fin 16384) (d : Fin 2) :
    val_main_v8 (F := Ideal) x0 x2 x3 (idx_main_v9 (idx_main_v15 i p) d) = expoShare x0 x2 x3 (i 0) (i 1) p d := by
  rw [val_main_v8_apply, val_main_v7_apply, val_main_v4_apply, val_main_v6_apply, val_main_v5_apply, val_main_v2_apply,
    val_main_v0_apply, val_main_v3_apply, val_main_v1_apply, sharp_at, centre_at, point_at]
  rfl

/-- The reference's result at (b, n) is the pooled response. -/
theorem result_is_pool (x0 : Pts.Idx → EReal) (x1 : Msk.Idx → EReal) (x2 x3 : Ctr.Idx → EReal) :
    val_main_v15 (F := Ideal) x0 x1 x2 x3 = fun i => response x0 x1 x2 x3 (i 0) (i 1) := by
  funext i
  rw [val_main_v15_apply, val_main_cst_0_apply]
  show Ideal.ofBits .f32 0x00000000#32 + _ = _
  rw [Ideal.ofBits_zero_f32, zero_add]
  unfold response
  refine Finset.sum_congr rfl fun p _ => ?_
  rw [val_main_v14_apply, val_main_v11_apply, val_main_v10_apply, val_main_v9_apply, val_main_cst_apply,
    val_main_v13_apply, val_main_v12_apply, mask_at]
  simp only [share_at]
  show Ideal.exp (-(Ideal.ofBits .f32 0x00000000#32 + _)) * _ = _
  rw [Ideal.ofBits_zero_f32, zero_add]
  rfl

end Cert.ReferenceIdeal.RefValue

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.LibColumnVec.lean ====
/-
  A one-column matrix flattened to a vector, read at an index, generic in the length.

  An `[a, 1]` column and the `[a]` vector of its entries have the same row-major order, so the vector at `i` is
  the column at `(i, 0)`.
-/
import Idealize.ShloMosaic.Lib.Pipeline.Value
import Idealize.ShloMosaic.Lib.ValueIdx

noncomputable section

namespace Cert.LibColumnVec

open Idealize.ShloMosaic Idealize.ShloMosaic.ValueIdx

variable {α : Type}

/-- An `[a, 1]` column cast to the vector `[a]` reads, at `i`, the column's entry of row `i`: both have row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnVec

end
-- ==== Proof.KernelPoint.lean ====
/-
  What the kernel body computes at one grid point, read at an index.  The body holds one batch element's points
  x : [1, 16384, 2], its mask row k : [1, 1, 16384], and the whole tables of centres c and sharpnesses s : [64, 2].
  For each plane coordinate d it spreads column d of c and of s along the points and coordinate d of x along the
  centres, forms (s·δ)·δ with δ = c − x on the [64, 16384] grid, adds the two coordinates into a zero, subtracts the
  sum from zero, exponentiates, multiplies by the mask row spread along the centres, and sums each row over the
  16384 points.  So the [1, 64, 1] block it stores holds, at centre n, the sum over p of
  exp(0 − ((0 + (s₀·δ₀)·δ₀) + (s₁·δ₁)·δ₁)) · k[p].
-/
import proofs.«172407_j45200235823404_1_alg».proof.Proof.Gen.KernelIdeal.Skeleton
import proofs.«172407_j45200235823404_1_alg».proof.Proof.LibKeepdims
import proofs.«172407_j45200235823404_1_alg».proof.Proof.LibColumnVec
import Idealize.ShloMosaic.Lib.ValueLayout
import Idealize.ShloMosaic.PureOps.Ideal.Laws

noncomputable section

namespace Cert.KernelIdeal.PointValue

open Cert.KernelIdeal Cert.KernelIdeal.Gen Idealize.ShloMosaic Idealize.ShloMosaic.ValueIdx

/-- The exponential of a vector, entry by entry. -/
theorem exp_apply {s : Shape} {φ : FTy} (a : FVec Ideal s φ) (i : s.Idx) : exp a i = Ideal.exp (a i) := rfl

/-- Column `o` of a [64, 2] table, spread along the points: at (n, p) it is the table's entry (n, o). -/
theorem column_spread (v : S64x2.Idx → EReal) (o : Nat) (ho : o < 2)
    (hs : S64x2.Slices ![0, o] S64x1) (h1 : S64x1.ShapeCasts S64) (h2 : S64.ShapeCasts S64x1) (hb : S64x1.Broadcasts S64x16384)
    (n : Fin 64) (p : Fin 16384) :
    broadcastTo S64x16384 (shapeCast S64x1 (shapeCast S64 (extractStridedSlice S64x1 ![0, o] v hs) h1) h2) hb (ix2 n p)
      = v (ix2 n ⟨o, ho⟩) := by
  rw [Cert.LibKeepdims.broadcastTo_a1_ab_apply, Cert.LibKeepdims.shapeCast_a_a1_apply, Cert.LibColumnVec.shapeCast_a1_a_apply,
    slice2_axis1_apply o v hs n 0 ⟨o, ho⟩ rfl]

/-- Coordinate `o` of the batch element's points, spread along the centres: at (n, p) it is point p's coordinate o. -/
theorem coord_spread (x : S1x16384x2.Idx → EReal) (o : Nat) (ho : o < 2)
    (h0 : S1x16384x2.ShapeCasts S16384x2) (hs : S16384x2.Slices ![0, o] S16384x1) (h1 : S16384x1.ShapeCasts S16384)
    (h2 : S16384.ShapeCasts S1x16384) (hb : S1x16384.Broadcasts S64x16384) (n : Fin 64) (p : Fin 16384) :
    broadcastTo S64x16384 (shapeCast S1x16384 (shapeCast S16384 (extractStridedSlice S16384x1 ![0, o] (shapeCast S16384x2 x h0) hs) h1) h2) hb (ix2 n p)
      = x (ix3 (0 : Fin 1) p ⟨o, ho⟩) := by
  rw [broadcastTo_1b_ab_apply, shapeCast_a_1a_apply, Cert.LibColumnVec.shapeCast_a1_a_apply,
    slice2_axis1_apply o _ hs p 0 ⟨o, ho⟩ rfl, shapeCast_1ab_ab_apply]

/-- The mask row spread along the centres: at (n, p) it is the mask of point p. -/
theorem mask_spread (k : S1x1x16384.Idx → EReal) (h0 : S1x1x16384.ShapeCasts S1x16384) (hb : S1x16384.Broadcasts S64x16384)
    (n : Fin 64) (p : Fin 16384) :
    broadcastTo S64x16384 (shapeCast S1x16384 k h0) hb (ix2 n p) = k (ix3 (0 : Fin 1) (0 : Fin 1) p) := by
  rw [broadcastTo_1b_ab_apply, shapeCast_1ab_ab_apply]

/-- The stored block at centre n: the sum over the points of the masked weights, the exponent accumulated
    coordinate by coordinate into a zero and negated by subtraction from zero. -/
theorem payload_at (x0 : S1x16384x2.Idx → EReal) (x1 : S1x1x16384.Idx → EReal) (x2 x3 : S64x2.Idx → EReal)
    (u : Fin 1) (n : Fin 64) (w : Fin 1) :
    k0_pay1 (F := Ideal) (k0_pay2 (F := Ideal) x0 x1 x2 x3) (ix3 u n w)
      = ∑ p : Fin 16384,
          Ideal.exp (0 - ((0 + x3 (ix2 n 0) * (x2 (ix2 n 0) - x0 (ix3 0 p 0)) * (x2 (ix2 n 0) - x0 (ix3 0 p 0)))
                          + x3 (ix2 n 1) * (x2 (ix2 n 1) - x0 (ix3 0 p 1)) * (x2 (ix2 n 1) - x0 (ix3 0 p 1))))
            * x1 (ix3 0 0 p) := by
  unfold k0_pay1 k0_pay2
  dsimp only
  rw [shapeCast_ab_1ab_apply, Cert.LibKeepdims.shapeCast_a_a1_apply]
  refine (Cert.LibKeepdims.rowSum_apply _ _ _ _ _ n).trans ?_
  refine Finset.sum_congr rfl fun p _ => ?_
  simp only [mulf_apply, addf_apply, subf_apply, exp_apply, broadcast_apply]
  rw [column_spread x2 0 (by decide), column_spread x2 1 (by decide), column_spread x3 0 (by decide), column_spread x3 1 (by decide),
    coord_spread x0 0 (by decide), coord_spread x0 1 (by decide), mask_spread x1]
  rw [show Scalar.ofBits (F := Ideal) .f32 0x00000000#32 = (0 : EReal) from Ideal.ofBits_zero_f32]
  rfl

end Cert.KernelIdeal.PointValue

end
-- ==== Proof.LibUnitAxis.lean ====
/-
  A unit axis inserted in the middle of a matrix's shape, and a trailing unit axis dropped, read at an index; generic
  in the sizes.

  A shape cast keeps the row-major order.  An `[a, b]` matrix viewed as `[a, 1, b]` has, at `(i, u, j)`, row-major
  position `(i·1 + u)·b + j = i·b + j`, the matrix's position of `(i, j)`; an `[a, b, 1]` array viewed as `[a, b]` has,
  at `(i, j)`, position `i·b + j = (i·b + j)·1 + 0`, the array's position of `(i, j, 0)`.
-/
import Idealize.ShloMosaic.Lib.Pipeline.Value
import Idealize.ShloMosaic.Lib.ValueIdx

noncomputable section

namespace Cert.LibUnitAxis

open Idealize.ShloMosaic Idealize.ShloMosaic.ValueIdx

variable {α : Type}

/-- An `[a, b]` matrix cast to `[a, 1, b]` reads, at `(i, u, j)`, the matrix at `(i, j)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array cast to `[a, b]` reads, at `(i, j)`, the array at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Cert.LibUnitAxis

end
-- ==== Proof.KernelArray.lean ====
/-
  The kernel's output array after the run.  Grid point t works on batch element t: it is handed the block
  x[t, ·, ·] of the points, the row k[t, 0, ·] of the mask (the mask viewed as [64, 1, 16384]), and the whole tables of
  centres and sharpnesses, and writes back the block [t, ·, 0] of the [64, 64, 1] output.  By the body's value at an
  index that block holds, at centre n, the pooled response of centre n on batch element t; the 64 blocks tile the
  output, so after the run the output holds the response at every (b, n, 0).
-/
import proofs.«172407_j45200235823404_1_alg».proof.Proof.Gen.KernelIdeal.Frame
import proofs.«172407_j45200235823404_1_alg».proof.Proof.KernelPoint
import proofs.«172407_j45200235823404_1_alg».proof.Proof.RbfPool
import proofs.«172407_j45200235823404_1_alg».proof.Proof.LibUnitAxis
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.ShloMosaic.ValueIdx
open Idealize.ShloMosaic.StableHlo Idealize.SL.Sem Cert.RbfPool
open Idealize.ShloMosaic.Pipeline (Dat)

variable (m : (ℓ : Loc nD τ sig) → Buf (Elt Ideal) ℓ)

theorem off3 : (![0, 0, 0] : Fin 3 → Nat) = fun _ => 0 := funext fun a => by fin_cases a <;> rfl
theorem off2 : (![0, 0] : Fin 2 → Nat) = fun _ => 0 := funext fun a => by fin_cases a <;> rfl

/-! ## The arrays as the region finds them, as functions into the extended reals -/

/-- The points. -/
abbrev ptsArr (c : Dev nD) : Pts.Idx → EReal := V m c main_arg0
/-- The mask as the region finds it: one row of 16384 entries per batch element. -/
abbrev mskRows (c : Dev nD) : S64x1x16384.Idx → EReal := V m c main_v0
/-- The centres. -/
abbrev ctrArr (c : Dev nD) : Ctr.Idx → EReal := V m c main_arg2
/-- The sharpnesses. -/
abbrev shpArr (c : Dev nD) : Ctr.Idx → EReal := V m c main_arg3
/-- The mask as launched. -/
abbrev mskArr (c : Dev nD) : Msk.Idx → EReal := m ((c : Thread nD τ).loc main_arg1)

/-- Row b of the mask as the region finds it is row b of the mask as launched: the one host line before the
    region only inserts a unit axis. -/
theorem mskRows_at (c : Dev nD) (b : Fin 64) (u : Fin 1) (p : Fin 16384) :
    mskRows m c (ix3 b u p) = mskArr m c (ix2 b p) := by
  have e : (V m c main_v0 : S64x1x16384.Idx → EReal)
      = shapeCast S64x1x16384 (mskArr m c) Facts₀.shapeCasts_S64x16384_S64x1x16384 := by
    show StableHlo.after hostOps0 (fun b => m (c, b)) (Proc.devRef .tc main_v0) = _
    after_results
    rfl
  show (V m c main_v0 : S64x1x16384.Idx → EReal) (ix3 b u p) = _
  rw [e, Cert.LibUnitAxis.shapeCast_ab_a1b_apply]

/-! ## The response, as the output array's function -/

/-- What the output array holds: at (b, n, 0) the response of centre n on batch element b, from the arrays as launched. -/
def outArr (c : Dev nD) : S64x64x1.Idx → EReal := fun i =>
  response (ptsArr m c) (mskArr m c) (ctrArr m c) (shpArr m c) (i 0) (i 1)

/-! ## The blocks a point is handed -/

/-- The printed index maps over the grid: points, mask rows and output move with the point on their leading axis and
    sit at block 0 elsewhere; the two tables are one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The batch element a grid point works on. -/
abbrev batchOf (t : Fin cfg0.N) : Fin 64 := Fin.cast N_0 t

/-- The points' block at point t is batch element t's points. -/
theorem pts_block (c : Dev nD) (t : Fin cfg0.N) (p : Fin 16384) (d : Fin 2) :
    iblk m c 0 t (ix3 (0 : Fin 1) p d) = ptsArr m c (ix3 (batchOf t) p d) := by
  obtain ⟨e0, e1, e2, -⟩ := idx_facts t
  show V m c main_arg0 (((cfg0.win 0).blk t).view.emb (ix3 (0 : Fin 1) p d)) = V m c main_arg0 (ix3 (batchOf t) p d)
  refine congrArg _ (funext fun a => Fin.ext ?_)
  match a with
  | ⟨0, _⟩ => show win0_0.index t (0 : Fin 3) * 1 + 1 * 0 = t.val; omega
  | ⟨1, _⟩ => show win0_0.index t (1 : Fin 3) * 16384 + 1 * p.val = p.val; omega
  | ⟨2, _⟩ => show win0_0.index t (2 : Fin 3) * 2 + 1 * d.val = d.val; omega

/-- The mask's block at point t is batch element t's row. -/
theorem msk_block (c : Dev nD) (t : Fin cfg0.N) (p : Fin 16384) :
    iblk m c 1 t (ix3 (0 : Fin 1) (0 : Fin 1) p) = mskRows m c (ix3 (batchOf t) (0 : Fin 1) p) := by
  obtain ⟨-, -, -, e0, e1, e2, -⟩ := idx_facts t
  show V m c main_v0 (((cfg0.win 1).blk t).view.emb (ix3 (0 : Fin 1) (0 : Fin 1) p)) = V m c main_v0 (ix3 (batchOf t) (0 : Fin 1) p)
  refine congrArg _ (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 16384 + 1 * p.val = p.val; omega

/-- The centres' block is the whole table at every point. -/
theorem ctr_block (c : Dev nD) (t : Fin cfg0.N) (n : Fin 64) (d : Fin 2) :
    iblk m c 2 t (ix2 n d) = ctrArr m c (ix2 n d) := by
  obtain ⟨-, -, -, -, -, -, e0, e1, -⟩ := idx_facts t
  show V m c main_arg2 (((cfg0.win 2).blk t).view.emb (ix2 n d)) = V m c main_arg2 (ix2 n d)
  refine congrArg _ (funext fun a => Fin.ext ?_)
  match a with
  | ⟨0, _⟩ => show win0_2.index t (0 : Fin 2) * 64 + 1 * n.val = n.val; omega
  | ⟨1, _⟩ => show win0_2.index t (1 : Fin 2) * 2 + 1 * d.val = d.val; omega

/-- So is the sharpnesses'. -/
theorem shp_block (c : Dev nD) (t : Fin cfg0.N) (n : Fin 64) (d : Fin 2) :
    iblk m c 3 t (ix2 n d) = shpArr m c (ix2 n d) := by
  obtain ⟨-, -, -, -, -, -, -, -, e0, e1, -⟩ := idx_facts t
  show V m c main_arg3 (((cfg0.win 3).blk t).view.emb (ix2 n d)) = V m c main_arg3 (ix2 n d)
  refine congrArg _ (funext fun a => Fin.ext ?_)
  match a with
  | ⟨0, _⟩ => show win0_3.index t (0 : Fin 2) * 64 + 1 * n.val = n.val; omega
  | ⟨1, _⟩ => show win0_3.index t (1 : Fin 2) * 2 + 1 * d.val = d.val; omega

/-! ## What a point writes back -/

/-- The block the body stores at point t holds, at centre n, the response of centre n on batch element t: the
    body's value at an index, each block read where it lies in its array, and the unrolled exponent folded. -/
theorem block_value (c : Dev nD) (t : Fin cfg0.N) (u : Fin 1) (n : Fin 64) (w : Fin 1) :
    k0_pay1 (F := Ideal) (k0_pay2 (F := Ideal) (iblk m c 0 t) (iblk m c 1 t) (iblk m c 2 t) (iblk m c 3 t)) (ix3 u n w)
      = response (ptsArr m c) (mskArr m c) (ctrArr m c) (shpArr m c) (batchOf t) n := by
  refine (Cert.KernelIdeal.PointValue.payload_at (iblk m c 0 t) (iblk m c 1 t) (iblk m c 2 t) (iblk m c 3 t) u n w).trans ?_
  unfold response
  refine Finset.sum_congr rfl fun p _ => ?_
  rw [pts_block, pts_block, msk_block, ctr_block, ctr_block, shp_block, shp_block, mskRows_at]
  exact ptWeight_unrolled (ptsArr m c) (mskArr m c) (ctrArr m c) (shpArr m c) (batchOf t) n p

/-- The same as a function of the block's index: only the centre's coordinate matters. -/
theorem block_fn (c : Dev nD) (t : Fin cfg0.N) :
    k0_pay1 (F := Ideal) (k0_pay2 (F := Ideal) (iblk m c 0 t) (iblk m c 1 t) (iblk m c 2 t) (iblk m c 3 t))
      = fun y : S1x64x1.Idx => response (ptsArr m c) (mskArr m c) (ctrArr m c) (shpArr m c) (batchOf t) (y 1) := by
  funext y
  obtain ⟨u, n, w, rfl⟩ : ∃ (u : Fin 1) (n : Fin 64) (w : Fin 1), y = ix3 u n w := ⟨y 0, y 1, y 2, eq_ix3 y⟩
  exact block_value m c t u n w

set_option maxRecDepth 65536 in
/-- Point t writes back block t of the response array. -/
theorem flushed_eq (c : Dev nD) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero off3]
  simp only [View.ld_unit_zero (S := S1x16384x2) off3, View.ld_unit_zero (S := S1x1x16384) off3, View.ld_unit_zero (S := S64x2) off2]
  rw [block_fn]
  obtain ⟨-, -, -, -, -, -, -, -, -, -, e0, e1, e2⟩ := idx_facts t
  funext j
  have hj0 : (j 0).val < 1 := (j 0).isLt
  rw [View.read_apply]
  unfold outArr
  refine congrArg₂ (response (ptsArr m c) (mskArr m c) (ctrArr m c) (shpArr m c)) (Fin.ext ?_) (Fin.ext ?_)
  · show t.val = win0_4.index t (0 : Fin 3) * 1 + 1 * (j 0).val
    omega
  · show (j 1).val = win0_4.index t (1 : Fin 3) * 64 + 1 * (j 1).val
    omega

/-! ## The blocks tile the output -/

/-- An index of the output is in point t's block iff each coordinate is in the block's range on its axis. -/
theorem mem_blk (t : Fin cfg0.N) (i : S64x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v1).slice (win0_4.rect t)).set ↔ _
  rw [View.set_slice_whole, Rect.mem_set_unit]
  exact Iff.rfl

/-- Every index (b, n, 0) is in the block of the point that works on batch element b. -/
theorem covered (i : S64x64x1.Idx) :
    ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 1 := (i 2).isLt
  refine ⟨Fin.cast N_0.symm ⟨(i 0).val, h0⟩, flush0_4 _, ?_⟩
  rw [mem_blk]
  obtain ⟨-, -, -, -, -, -, -, -, -, -, e0, e1, e2⟩ := idx_facts (Fin.cast N_0.symm ⟨(i 0).val, h0⟩)
  have e0' : win0_4.index (Fin.cast N_0.symm ⟨(i 0).val, h0⟩) (0 : Fin 3) = (i 0).val := e0
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 64 ≤ (i 1).val ∧ (i 1).val < win0_4.index _ (1 : Fin 3) * 64 + 64; omega
  | ⟨2, _⟩ => show win0_4.index _ (2 : Fin 3) * 1 ≤ (i 2).val ∧ (i 2).val < win0_4.index _ (2 : Fin 3) * 1 + 1; omega

/-- The output array after the run is the response array. -/
theorem out_final (c : Dev nD) : (dats m 0 c).arrAt 4 cfg0.N = outArr m c :=
  (dats m 0 c).arrAt_eq_of_cover 4 (outArr m c) (fun t _ => flushed_eq m c t) covered

end Cert.KernelIdeal.ArrayValue

end
-- ==== Proof.KernelRun.lean ====
/-
  The kernel program's run with its result named.  After the region one host line drops the output's trailing
  unit axis, [64, 64, 1] → [64, 64]; a cast keeps the row-major order, so the result at (b, n) is the output at
  (b, n, 0): the pooled response of centre n on batch element b, of the arrays as launched (the points, the centres
  and the sharpnesses reach the region untouched; the mask only gained a unit axis).  The arguments end unchanged.
-/
import proofs.«172407_j45200235823404_1_alg».proof.Proof.KernelArray

noncomputable section

namespace Cert.KernelIdeal.RunValue

open Cert.KernelIdeal Cert.KernelIdeal.Gen Idealize.ShloMosaic Idealize.ShloMosaic.TcCoe Idealize.ShloMosaic.ValueIdx
open Idealize.ShloMosaic.StableHlo Idealize.SL.Sem Cert.RbfPool Cert.KernelIdeal.ArrayValue

variable (m : (ℓ : Loc nD τ sig) → Buf (Elt Ideal) ℓ) (ρ : Dev nD → PrngReg)

/-- The program's result on core c: the response at every (b, n), of the arrays as launched. -/
def result (c : Dev nD) : S64x64.Idx → EReal := fun i =>
  response (m ((c : Thread nD τ).loc main_arg0)) (m ((c : Thread nD τ).loc main_arg1))
    (m ((c : Thread nD τ).loc main_arg2)) (m ((c : Thread nD τ).loc main_arg3)) (i 0) (i 1)

/-- No host line before the region writes the points, the centres or the sharpnesses. -/
theorem ptsArr_eq (c : Dev nD) : ptsArr m c = m ((c : Thread nD τ).loc main_arg0) := V_main_arg0 m c
theorem ctrArr_eq (c : Dev nD) : ctrArr m c = m ((c : Thread nD τ).loc main_arg2) := V_main_arg2 m c
theorem shpArr_eq (c : Dev nD) : shpArr m c = m ((c : Thread nD τ).loc main_arg3) := V_main_arg3 m c

/-- The result buffer after the host line that follows the region. -/
theorem result_eq (c : Dev nD) :
    (Pipeline.afterTail₀ cfgs (dats m) 0 (V0 m) [hostOps1] c main_v2 : S64x64.Idx → EReal) = result m c := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.tc.devRef main_v1) : S64x64x1.Idx → EReal)
      = outArr m c :=
    (Pipeline.withArrays_arr spec0 launch0.win.arr_inj c _ _ 4).trans (out_final m c)
  funext i
  obtain ⟨b, n, rfl⟩ : ∃ (b n : Fin 64), i = ix2 b n := ⟨i 0, i 1, eq_ix2 i⟩
  show shapeCast S64x64 (Pipeline.withArrays (cfgs 0).spec c (V0 m c) (fun w => (dats m 0 c).arrAt w (cfgs 0).N) (Proc.tc.devRef main_v1) : S64x64x1.Idx → EReal)
      Facts₀.shapeCasts_S64x64x1_S64x64 (ix2 b n) = _
  rw [Cert.LibUnitAxis.shapeCast_ab1_ab_apply, hw]
  unfold outArr result
  rw [ptsArr_eq, ctrArr_eq, shpArr_eq]

/-- Every weakly fair execution of the kernel program terminates with the result at the response and the arguments
    unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.KernelIdeal.RunValue

end
-- ==== Proof.lean ====
/-
  Gaussian radial-basis pooling: for 64 batch elements of 16384 points in the plane, with a 0/1 mask on the points,
  and 64 centres c[n] with per-coordinate sharpnesses s[n], the result at (b, n) is

      Σ_p  exp(−Σ_d s[n,d]·(c[n,d] − x[b,p,d])²) · k[b,p].

  The kernel takes one batch element per grid point: it spreads the centres along the points and the points along
  the centres, accumulates the two coordinates' shares (s·δ)·δ into a zero, negates by subtracting from zero,
  exponentiates, masks, and sums each centre's row over the points; a host line before the region gives the mask a
  unit axis and one after it drops the output's.  The reference forms the same shares on a [64, 64, 16384, 2] box
  and sums the last axis, then the points, each into a zero.  On the extended reals the two are one function, index
  by index: a two-term sum is the two terms added to zero, zero minus e is −e, and the kernel's and the host's
  exponential and sums are the same exact operations.  No step uses that the inputs are finite.

  The three programs run, fault-free, with their arguments unchanged (the kernel programs' generated frames; the
  reference's generated run); the idealization rewrote nothing, so there is nothing to preserve; and the two
  idealized programs end with equal results.
-/
import proofs.«172407_j45200235823404_1_alg».proof.Defs
import proofs.«172407_j45200235823404_1_alg».proof.Proof.Gen.Kernel
import proofs.«172407_j45200235823404_1_alg».proof.Proof.Gen.Kernel.Skeleton
import proofs.«172407_j45200235823404_1_alg».proof.Proof.Gen.Kernel.Launch
import proofs.«172407_j45200235823404_1_alg».proof.Proof.Gen.Kernel.Points
import proofs.«172407_j45200235823404_1_alg».proof.Proof.Gen.Kernel.Frame
import proofs.«172407_j45200235823404_1_alg».proof.Proof.Gen.KernelIdeal
import proofs.«172407_j45200235823404_1_alg».proof.Proof.Gen.KernelIdeal.Skeleton
import proofs.«172407_j45200235823404_1_alg».proof.Proof.Gen.KernelIdeal.Launch
import proofs.«172407_j45200235823404_1_alg».proof.Proof.Gen.KernelIdeal.Points
import proofs.«172407_j45200235823404_1_alg».proof.Proof.Gen.KernelIdeal.Frame
import proofs.«172407_j45200235823404_1_alg».proof.Proof.Gen.ReferenceIdeal
import proofs.«172407_j45200235823404_1_alg».proof.Proof.Gen.ReferenceIdeal.Run
import proofs.«172407_j45200235823404_1_alg».proof.Proof.Gen.ReferenceIdeal.Read
import proofs.«172407_j45200235823404_1_alg».proof.Proof.Gen.Pre_finite_inputs
import proofs.«172407_j45200235823404_1_alg».proof.Proof.RefPool
import proofs.«172407_j45200235823404_1_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel program ends with the pooled response in its result
    and so does the reference: its run's term is its last stage, that stage is the response index by index, and the
    arguments agree. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono
    (fun _ h c => ⟨(h c).1.trans ((Cert.ReferenceIdeal.Read.val_main_v15_eq _ _ _ _).trans ?_), (h c).2⟩)
    (Cert.ReferenceIdeal.Value.run (F := Ideal) m' ρ')
  rw [Cert.ReferenceIdeal.RefValue.result_is_pool, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
